-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256x3 : Shape := ⟨4, ![64, 256, 256, 3]⟩
abbrev S64x2 : Shape := ⟨2, ![64, 2]⟩
abbrev S_ : Shape := ⟨0, ![]⟩

class Facts : Prop where
  bcast_S_S64x256x256x3 : S_.BroadcastsInDim S64x256x256x3 (![] : Fin 0 → Fin S64x256x256x3.rank)
  reducesTo_S64x256x256x3_S_d0_1_2_3 : S64x256x256x3.ReducesTo [0, 1, 2, 3] S_
  h_S_ : 0 < S_.numel
  bcast_S_S64x2 : S_.BroadcastsInDim S64x2 (![] : Fin 0 → Fin S64x2.rank)
  reducesTo_S64x2_S_d0_1 : S64x2.ReducesTo [0, 1] S_

variable [Facts]

def fn {F : FTy → Type} [FloatOps F] (main_arg0 : FVec F S64x256x256x3 .f32) (main_arg1 : FVec F S64x256x256x3 .f32) (main_arg2 : IVec S64x2 32) : IVec S_ 1 :=
  let main_v0 : FVec F S64x256x256x3 .f32 := Host.absf main_arg0
  let main_cst : FVec F S_ .f32 := constant S_ .f32 0x7F800000#32
  let main_v1 : FVec F S64x256x256x3 .f32 := broadcastInDim S64x256x256x3 ![] bcast_S_S64x256x256x3 main_cst
  let main_v2 : IVec S64x256x256x3 1 := cmpf .olt main_v0 main_v1
  let main_c : IVec S_ 1 := constantI S_ 1 1#1
  let main_v3 : IVec S_ 1 := (fun x v => Host.reduce IntOp.andi x v reducesTo_S64x256x256x3_S_d0_1_2_3 h_S_) main_v2 main_c
  let main_v4 : FVec F S64x256x256x3 .f32 := Host.absf main_arg1
  let main_cst_0 : FVec F S_ .f32 := constant S_ .f32 0x7F800000#32
  let main_v5 : FVec F S64x256x256x3 .f32 := broadcastInDim S64x256x256x3 ![] bcast_S_S64x256x256x3 main_cst_0
  let main_v6 : IVec S64x256x256x3 1 := cmpf .olt main_v4 main_v5
  let main_c_1 : IVec S_ 1 := constantI S_ 1 1#1
  let main_v7 : IVec S_ 1 := (fun x v => Host.reduce IntOp.andi x v reducesTo_S64x256x256x3_S_d0_1_2_3 h_S_) main_v6 main_c_1
  let main_v8 : IVec S_ 1 := andi main_v3 main_v7
  let main_c_2 : IVec S_ 32 := constantI S_ 32 0#32
  let main_v9 : IVec S64x2 32 := broadcastInDim S64x2 ![] bcast_S_S64x2 main_c_2
  let main_v10 : IVec S64x2 1 := cmpi .sge main_arg2 main_v9
  let main_c_3 : IVec S_ 32 := constantI S_ 32 2#32
  let main_v11 : IVec S64x2 32 := broadcastInDim S64x2 ![] bcast_S_S64x2 main_c_3
  let main_v12 : IVec S64x2 1 := cmpi .slt main_arg2 main_v11
  let main_v13 : IVec S64x2 1 := andi main_v10 main_v12
  let main_c_4 : IVec S_ 1 := constantI S_ 1 1#1
  let main_v14 : IVec S_ 1 := (fun x v => Host.reduce IntOp.andi x v reducesTo_S64x2_S_d0_1 h_S_) main_v13 main_c_4
  let main_v15 : IVec S_ 1 := andi main_v8 main_v14
  main_v15
-- ==== Kernel.lean ====
abbrev S64x256x256x3 : Shape := ⟨4, ![64, 256, 256, 3]⟩
abbrev S64x2 : Shape := ⟨2, ![64, 2]⟩
abbrev S64x256x768 : Shape := ⟨3, ![64, 256, 768]⟩
abbrev S64x2x256x768 : Shape := ⟨4, ![64, 2, 256, 768]⟩
abbrev S4x256x768 : Shape := ⟨3, ![4, 256, 768]⟩
abbrev S4x2x256x768 : Shape := ⟨4, ![4, 2, 256, 768]⟩
abbrev S1x1 : Shape := ⟨2, ![1, 1]⟩
abbrev S1x256x768 : Shape := ⟨3, ![1, 256, 768]⟩
abbrev S256x768 : Shape := ⟨2, ![256, 768]⟩
abbrev S1x1x256x768 : Shape := ⟨4, ![1, 1, 256, 768]⟩
abbrev S64x2x256x256x3 : Shape := ⟨5, ![64, 2, 256, 256, 3]⟩
abbrev S64x256x256x2x3 : Shape := ⟨5, ![64, 256, 256, 2, 3]⟩

abbrev nBuf : Space → Nat
  | .hbm => 7
  | .vmem => 6
  | .smem => 1
  | _ => 0

abbrev bufTy : (tb : Table) → Fin (tcTables nBuf tb) → BufTy
  | .hbm, ⟨0, _⟩ => ⟨S64x256x256x3, .f32⟩
  | .hbm, ⟨1, _⟩ => ⟨S64x256x256x3, .f32⟩
  | .hbm, ⟨2, _⟩ => ⟨S64x256x768, .f32⟩
  | .hbm, ⟨3, _⟩ => ⟨S64x256x768, .f32⟩
  | .hbm, ⟨4, _⟩ => ⟨S64x2x256x768, .f32⟩
  | .hbm, ⟨5, _⟩ => ⟨S64x2x256x256x3, .f32⟩
  | .hbm, ⟨6, _⟩ => ⟨S64x256x256x2x3, .f32⟩
  | .local _ .vmem, ⟨0, _⟩ => ⟨S4x256x768, .f32⟩
  | .local _ .vmem, ⟨1, _⟩ => ⟨S4x256x768, .f32⟩
  | .local _ .vmem, ⟨2, _⟩ => ⟨S4x256x768, .f32⟩
  | .local _ .vmem, ⟨3, _⟩ => ⟨S4x256x768, .f32⟩
  | .local _ .vmem, ⟨4, _⟩ => ⟨S4x2x256x768, .f32⟩
  | .local _ .vmem, ⟨5, _⟩ => ⟨S4x2x256x768, .f32⟩
  | .local _ .smem, ⟨0, _⟩ => ⟨S64x2, .i32⟩
  | _, _ => ⟨S64x256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  let c0 : Index := 0#32
  ![v2.toNat, 0]
def k0_off2 (i : grid0.Coords) (c0_i32 : BitVec 32) : Fin 2 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v4 : Index := Scalar.indexCast v1
  let c1 : Index := 1#32
  ![v4.toNat, 1]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x256x256x3_S64x256x768 : S64x256x256x3.ShapeCasts S64x256x768
  numel1_S1x1 : S1x1.numel = 1
  inb_S4x256x768_S1x256x768_0_0_0 : ∀ a, (![0, 0, 0] : Fin 3 → Nat) a + S1x256x768.size a ≤ S4x256x768.size a
  h_S1x256x768 : 0 < S1x256x768.numel
  shapeCasts_S1x256x768_S256x768 : S1x256x768.ShapeCasts S256x768
  inb_S4x2x256x768_S1x1x256x768_0_0_0_0 : ∀ a, (![0, 0, 0, 0] : Fin 4 → Nat) a + S1x1x256x768.size a ≤ S4x2x256x768.size a
  h_S1x1x256x768 : 0 < S1x1x256x768.numel
  shapeCasts_S1x1x256x768_S256x768 : S1x1x256x768.ShapeCasts S256x768
  shapeCasts_S256x768_S1x1x256x768 : S256x768.ShapeCasts S1x1x256x768
  inb_S4x2x256x768_S1x1x256x768_0_1_0_0 : ∀ a, (![0, 1, 0, 0] : Fin 4 → Nat) a + S1x1x256x768.size a ≤ S4x2x256x768.size a
  inb_S4x256x768_S1x256x768_1_0_0 : ∀ a, (![1, 0, 0] : Fin 3 → Nat) a + S1x256x768.size a ≤ S4x256x768.size a
  inb_S4x2x256x768_S1x1x256x768_1_0_0_0 : ∀ a, (![1, 0, 0, 0] : Fin 4 → Nat) a + S1x1x256x768.size a ≤ S4x2x256x768.size a
  inb_S4x2x256x768_S1x1x256x768_1_1_0_0 : ∀ a, (![1, 1, 0, 0] : Fin 4 → Nat) a + S1x1x256x768.size a ≤ S4x2x256x768.size a
  inb_S4x256x768_S1x256x768_2_0_0 : ∀ a, (![2, 0, 0] : Fin 3 → Nat) a + S1x256x768.size a ≤ S4x256x768.size a
  inb_S4x2x256x768_S1x1x256x768_2_0_0_0 : ∀ a, (![2, 0, 0, 0] : Fin 4 → Nat) a + S1x1x256x768.size a ≤ S4x2x256x768.size a
  inb_S4x2x256x768_S1x1x256x768_2_1_0_0 : ∀ a, (![2, 1, 0, 0] : Fin 4 → Nat) a + S1x1x256x768.size a ≤ S4x2x256x768.size a
  inb_S4x256x768_S1x256x768_3_0_0 : ∀ a, (![3, 0, 0] : Fin 3 → Nat) a + S1x256x768.size a ≤ S4x256x768.size a
  inb_S4x2x256x768_S1x1x256x768_3_0_0_0 : ∀ a, (![3, 0, 0, 0] : Fin 4 → Nat) a + S1x1x256x768.size a ≤ S4x2x256x768.size a
  inb_S4x2x256x768_S1x1x256x768_3_1_0_0 : ∀ a, (![3, 1, 0, 0] : Fin 4 → Nat) a + S1x1x256x768.size a ≤ S4x2x256x768.size a
  shapeCasts_S64x2x256x768_S64x2x256x256x3 : S64x2x256x768.ShapeCasts S64x2x256x256x3
  transposes_S64x2x256x256x3_S64x256x256x2x3_0_2_3_1_4 : S64x2x256x256x3.Transposes [0, 2, 3, 1, 4] S64x256x256x2x3
  hrank0 : 0 < grid0.rank
  k0_off1_inb : ∀ i : grid0.Coords, ∀ (r : Fin 4), ∀ a, (k0_off1 i (BitVec.ofNat 32 r.val)) a + S1x1.size a ≤ S64x2.size a
  k0_off2_inb : ∀ i : grid0.Coords, ∀ (r : Fin 4), ∀ a, (k0_off2 i (BitVec.ofNat 32 r.val)) a + S1x1.size a ≤ S64x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x768.size a ≤ S64x256x768.size a
  hwx0_0 : ∀ i : grid0.Coords, EltTy.bits .f32 = 32 ∨ (Rect.block (s := S64x256x768) S4x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x768.size a ≤ S64x256x768.size a
  hwx0_1 : ∀ i : grid0.Coords, EltTy.bits .f32 = 32 ∨ (Rect.block (s := S64x256x768) S4x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2x256x768.size a ≤ S64x2x256x768.size a
  hwx0_2 : ∀ i : grid0.Coords, EltTy.bits .f32 = 32 ∨ (Rect.block (s := S64x2x256x768) S4x2x256x768.size (cc0_transform_2 i) (hinb0_2 i)).WholeWords (EltTy.packing .f32)

variable [Facts₀]

abbrev spec0_0 : Pipeline.WinSpec sig grid0.rank :=
  Pipeline.WinSpec.ofSpec (Memref.whole main_v0) S4x256x768.size reads0_0 false false 2 stage0_0 sem0_0 nbuf0_0 hstage0_0

abbrev spec0_1 : Pipeline.WinSpec sig grid0.rank :=
  Pipeline.WinSpec.ofSpec (Memref.whole main_v1) S4x256x768.size reads0_1 false false 2 stage0_1 sem0_1 nbuf0_1 hstage0_1

abbrev spec0_2 : Pipeline.WinSpec sig grid0.rank :=
  Pipeline.WinSpec.ofSpec (Memref.whole main_v2) S4x2x256x768.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S64x256x256x3 : Shape := ⟨4, ![64, 256, 256, 3]⟩
abbrev S64x2 : Shape := ⟨2, ![64, 2]⟩
abbrev S64x256x256x1x3 : Shape := ⟨5, ![64, 256, 256, 1, 3]⟩
abbrev S64x256x256x2x3 : Shape := ⟨5, ![64, 256, 256, 2, 3]⟩
abbrev S64x1x1x2x1 : Shape := ⟨5, ![64, 1, 1, 2, 1]⟩
abbrev S_ : Shape := ⟨0, ![]⟩
abbrev S64x2x1 : Shape := ⟨3, ![64, 2, 1]⟩
abbrev S1 : Shape := ⟨1, ![1]⟩
abbrev S1x1x1 : Shape := ⟨3, ![1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S64x256x256x3, .f32⟩
  | .hbm, ⟨1, _⟩ => ⟨S64x256x256x3, .f32⟩
  | .hbm, ⟨2, _⟩ => ⟨S64x2, .i32⟩
  | .hbm, ⟨3, _⟩ => ⟨S64x256x256x1x3, .f32⟩
  | .hbm, ⟨4, _⟩ => ⟨S64x256x256x1x3, .f32⟩
  | .hbm, ⟨5, _⟩ => ⟨S64x256x256x2x3, .f32⟩
  | .hbm, ⟨6, _⟩ => ⟨S64x1x1x2x1, .i32⟩
  | .hbm, ⟨7, _⟩ => ⟨S_, .i32⟩
  | .hbm, ⟨8, _⟩ => ⟨S64x1x1x2x1, .i32⟩
  | .hbm, ⟨9, _⟩ => ⟨S64x1x1x2x1, .i1⟩
  | .hbm, ⟨10, _⟩ => ⟨S_, .i32⟩
  | .hbm, ⟨11, _⟩ => ⟨S64x1x1x2x1, .i32⟩
  | .hbm, ⟨12, _⟩ => ⟨S64x1x1x2x1, .i32⟩
  | .hbm, ⟨13, _⟩ => ⟨S64x1x1x2x1, .i32⟩
  | .hbm, ⟨14, _⟩ => ⟨S64x2x1, .i32⟩
  | .hbm, ⟨15, _⟩ => ⟨S1, .i32⟩
  | .hbm, ⟨16, _⟩ => ⟨S_, .i32⟩
  | .hbm, ⟨17, _⟩ => ⟨S64x2x1, .i32⟩
  | .hbm, ⟨18, _⟩ => ⟨S64x2x1, .i1⟩
  | .hbm, ⟨19, _⟩ => ⟨S1x1x1, .i32⟩
  | .hbm, ⟨20, _⟩ => ⟨S64x2x1, .i32⟩
  | .hbm, ⟨21, _⟩ => ⟨S64x2x1, .i1⟩
  | .hbm, ⟨22, _⟩ => ⟨S64x2x1, .i1⟩
  | .hbm, ⟨23, _⟩ => ⟨S_, .i1⟩
  | .hbm, ⟨24, _⟩ => ⟨S64x2, .i1⟩
  | .hbm, ⟨25, _⟩ => ⟨S64x256x256x2x3, .f32⟩
  | .hbm, ⟨26, _⟩ => ⟨S64x256x256x2x3, .i1⟩
  | .hbm, ⟨27, _⟩ => ⟨S_, .f32⟩
  | .hbm, ⟨28, _⟩ => ⟨S64x256x256x2x3, .f32⟩
  | .hbm, ⟨29, _⟩ => ⟨S64x256x256x2x3, .f32⟩
  | _, _ => ⟨S64x256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩

abbrev nD : Nat := 1
abbrev τ : Topo := Topo.v7x

variable {F : FTy → Type} [FloatOps F]

class Facts₀ : Prop where
  bcast_S64x256x256x3_S64x256x256x1x3_0_1_2_4 : S64x256x256x3.BroadcastsInDim S64x256x256x1x3 (![0, 1, 2, 4] : Fin 4 → Fin S64x256x256x1x3.rank)
  concatenates_S64x256x256x1x3_S64x256x256x1x3_S64x256x256x2x3_d3 : Shape.Concatenates [S64x256x256x1x3, S64x256x256x1x3] S64x256x256x2x3 3
  bcast_S64x2_S64x1x1x2x1_0_3 : S64x2.BroadcastsInDim S64x1x1x2x1 (![0, 3] : Fin 2 → Fin S64x1x1x2x1.rank)
  bcast_S_S64x1x1x2x1 : S_.BroadcastsInDim S64x1x1x2x1 (![] : Fin 0 → Fin S64x1x1x2x1.rank)
  shapeCasts_S64x1x1x2x1_S64x2x1 : S64x1x1x2x1.ShapeCasts S64x2x1
  bcast_S_S64x2x1 : S_.BroadcastsInDim S64x2x1 (![] : Fin 0 → Fin S64x2x1.rank)
  bcast_S1_S1x1x1_2 : S1.BroadcastsInDim S1x1x1 (![2] : Fin 1 → Fin S1x1x1.rank)
  bcast_S1x1x1_S64x2x1_0_1_2 : S1x1x1.BroadcastsInDim S64x2x1 (![0, 1, 2] : Fin 3 → Fin S64x2x1.rank)
  reducesTo_S64x2x1_S64x2_d2 : S64x2x1.ReducesTo [2] S64x2
  h_S_ : 0 < S_.numel
  bcast_S64x2_S64x256x256x2x3_0_3 : S64x2.BroadcastsInDim S64x256x256x2x3 (![0, 3] : Fin 2 → Fin S64x256x256x2x3.rank)
  bcast_S_S64x256x256x2x3 : S_.BroadcastsInDim S64x256x256x2x3 (![] : Fin 0 → Fin S64x256x256x2x3.rank)
  gather_S64x256x256x2x3_S64x2x1_S64x256x256x2x3_124_3_0_0_3_2_125625613_wf : GatherDims.WF S64x256x256x2x3 S64x2x1 S64x256x256x2x3 [1, 2, 4] [3] [0] [3] [0] 2 ![1, 256, 256, 1, 3]

variable [Facts₀]

def gather_S64x256x256x2x3_S64x2x1_S64x256x256x2x3_124_3_0_0_3_2_125625613 : GatherDims S64x256x256x2x3 S64x2x1 S64x256x256x2x3 where
  offsetDims := [1, 2, 4]
  collapsedSliceDims := [3]
  operandBatchingDims := [0]
  startIndicesBatchingDims := [0]
  startIndexMap := [3]
  indexVectorDim := 2
  sliceSizes := ![1, 256, 256, 1, 3]
  wf := gather_S64x256x256x2x3_S64x2x1_S64x256x256x2x3_124_3_0_0_3_2_125625613_wf

class Facts : Prop extends Facts₀ where

variable [Facts]
-- ==== Proof.Spec.lean ====
/-
  The selection, as ONE function of the three argument arrays.

  Two stacks of 64 images [64, 256, 256, 3] and a table of 64 × 2 integer words. Result element (b, h, w, s, c) is pixel
  (h, w, c) of one of sample b's two images: slot s of the result shows the SECOND stack's image when the table's word at
  (b, s) is zero, and the FIRST stack's image otherwise. Both programs compute this function once the table's words are
  0 or 1: the kernel tests the word against zero and picks a block; the reference stacks the two images along a new axis
  of extent 2 (second stack first) and indexes that axis by the word.
-/
import Idealize.ShloMosaic.Lib.ValueIdx

noncomputable section

namespace Cert.Shuffle

open Idealize.ShloMosaic Idealize.ShloMosaic.ValueIdx

/-- A stack of images. -/
abbrev SImg : Shape := ⟨4, ![64, 256, 256, 3]⟩
/-- The table of choices: one word per sample and slot. -/
abbrev STab : Shape := ⟨2, ![64, 2]⟩
/-- The result: per sample and pixel, the two slots. -/
abbrev SRes : Shape := ⟨5, ![64, 256, 256, 2, 3]⟩

/-- The table entry a result element depends on: its sample and its slot. -/
abbrev tabOf (i : SRes.Idx) : STab.Idx :=
  ix2 (n0 := 64) (n1 := 2) ⟨(i 0).val, (i 0).isLt⟩ ⟨(i 3).val, (i 3).isLt⟩
/-- The pixel a result element shows: its sample, row, column and channel. -/
abbrev imgOf (i : SRes.Idx) : SImg.Idx :=
  ix4 (n0 := 64) (n1 := 256) (n2 := 256) (n3 := 3) ⟨(i 0).val, (i 0).isLt⟩ ⟨(i 1).val, (i 1).isLt⟩ ⟨(i 2).val, (i 2).isLt⟩
    ⟨(i 4).val, (i 4).isLt⟩

/-- THE RESULT: at each element the second stack's pixel where the table's word is zero, the first stack's otherwise. -/
def chosen {α : Type} (x0 x1 : SImg.Idx → α) (x2 : STab.Idx → BitVec 32) : SRes.Idx → α :=
  fun i => Scalar.select (IntOp.cmpi .eq (x2 (tabOf i)) 0#32) (x1 (imgOf i)) (x0 (imgOf i))

/-- The same by coordinates. -/
theorem chosen_ix5 {α : Type} (x0 x1 : SImg.Idx → α) (x2 : STab.Idx → BitVec 32)
    (b : Fin 64) (h : Fin 256) (w : Fin 256) (s : Fin 2) (c : Fin 3) :
    chosen x0 x1 x2 (ix5 b h w s c)
      = Scalar.select (IntOp.cmpi .eq (x2 (ix2 b s)) 0#32) (x1 (ix4 b h w c)) (x0 (ix4 b h w c)) := rfl

/-- The domain on which the reference indexes its stacked axis in range: every word of the table, read as a signed
    integer, is at least 0 and below 2. -/
def InRange (x2 : STab.Idx → BitVec 32) : Prop :=
  ∀ j : STab.Idx, IntOp.cmpi .sge (x2 j) 0#32 = 1#1 ∧ IntOp.cmpi .slt (x2 j) 2#32 = 1#1

end Cert.Shuffle

end
-- ==== Proof.RefChosen.lean ====
/-
  The reference's result is the selection.

  The reference stacks the two images of each sample along a new axis of extent 2, the SECOND stack's image at position
  0 and the FIRST stack's at position 1, and takes from that axis the position the table's word names: it wraps a
  negative word around by adding the extent, gathers at the word clamped into [0, 1], and blanks an element whose word
  is out of range. Once every word of the table is 0 or 1 the wrap-around does nothing, no element is blanked and the
  clamp does nothing, so result element (b, h, w, s, c) is pixel (h, w, c) of the second stack's image where the word
  at (b, s) is 0 and of the first stack's where it is 1.
-/
import proofs.«405880_j66494683676757_3_alg».proof.Proof.Spec
import proofs.«405880_j66494683676757_3_alg».proof.Proof.RefRead
import Idealize.ShloMosaic.Lib.ValueIdx
import Idealize.ShloMosaic.Lib.Affine
import Idealize.ShloMosaic.Lib.Pipeline.Value
import Idealize.ShloMosaic.PureOps.Reduce
import Idealize.ShloMosaic.PureOps.Ideal

noncomputable section

namespace Cert.Shuffle

open Idealize.ShloMosaic Idealize.ShloMosaic.ValueIdx Idealize.ShloMosaic.StableHlo
open Cert.ReferenceIdeal Cert.ReferenceIdeal.Gen Cert.ReferenceIdeal.ReadP

variable [Cert.ReferenceIdeal.Facts]
variable {F : FTy → Type} [FloatOps F]

/-! ## A word that is at least 0 and below 2 is 0 or 1 -/

/-- The two signed comparisons pin the word to 0 or 1. -/
theorem word_zero_or_one (x : BitVec 32) (hge : IntOp.cmpi .sge x 0#32 = 1#1) (hlt : IntOp.cmpi .slt x 2#32 = 1#1) :
    x = 0#32 ∨ x = 1#32 := by
  have h1 := IntOp.cmpi_sge.1 hge
  have h2 := IntOp.cmpi_slt.1 hlt
  have e0 : (0#32 : BitVec 32).toInt = 0 := by decide
  have e1 : (1#32 : BitVec 32).toInt = 1 := by decide
  have e2 : (2#32 : BitVec 32).toInt = 2 := by decide
  rw [e0] at h1; rw [e2] at h2
  rcases (by omega : x.toInt = 0 ∨ x.toInt = 1) with h | h
  · left; exact BitVec.eq_of_toInt_eq (by rw [h, e0])
  · right; exact BitVec.eq_of_toInt_eq (by rw [h, e1])

/-- On 0 and 1 the wrap-around of negative indices (add the extent 2 to a negative word) changes nothing. -/
theorem wrap_word (x : BitVec 32) (hx : x = 0#32 ∨ x = 1#32) :
    Scalar.select (IntOp.cmpi .slt x 0#32) (IntOp.addi x 2#32) x = x := by
  rcases hx with rfl | rfl <;> decide

/-- On 0 and 1 the in-range test of the gather's index (0 ≤ word ≤ 1) succeeds. -/
theorem mask_word (x : BitVec 32) (hx : x = 0#32 ∨ x = 1#32) :
    IntOp.andi (IntOp.cmpi .sge x 0#32) (IntOp.cmpi .sle x 1#32) = 1#1 := by
  rcases hx with rfl | rfl <;> decide

/-- A fold by "and" from 1 over 1s is 1. -/
theorem foldl_andi_ones {ι : Type} : ∀ l : List ι, l.foldl (fun r _ => IntOp.andi r (1#1 : BitVec 1)) 1#1 = 1#1
  | [] => rfl
  | _ :: l => by
    have e : IntOp.andi (1#1 : BitVec 1) 1#1 = 1#1 := by decide
    rw [List.foldl_cons, e]; exact foldl_andi_ones l

/-! ## The index array -/

/-- The index array's element (b, s, 0) is the table's word at (b, s). -/
theorem idx_word (x2 : (⟨S64x2, .i32⟩ : BufTy).Contents (Elt F)) (hr : InRange x2) (b : Fin 64) (s : Fin 2) (z : Fin 1) :
    val_main_call0_v5 (F := F) x2 (ix3 b s z) = x2 (ix2 b s) := by
  have hidx : idx_main_v3 (idx_main_call0_v5 (ix3 b s z)) = ix2 b s := by
    have hb := b.isLt; have hs := s.isLt; have hz := z.isLt
    funext a; refine Fin.ext ?_
    match a with
    | ⟨0, _⟩ => show ((b.val * 2 + s.val) * 1 + z.val) / 2 = b.val; omega
    | ⟨1, _⟩ => show ((b.val * 2 + s.val) * 1 + z.val) / 1 % 2 = s.val; omega
  rw [val_main_call0_v5_apply, val_main_call0_v4_apply, val_main_call0_v1_apply, val_main_call0_v3_apply,
    val_main_v3_apply, val_main_call0_v0_apply, val_main_call0_c_apply, val_main_call0_v2_apply,
    val_main_call0_c_0_apply, hidx]
  exact wrap_word _ (word_zero_or_one _ (hr _).1 (hr _).2)

/-- The in-range mask of the gather is 1 at every element of the index array. -/
theorem mask_elem (x2 : (⟨S64x2, .i32⟩ : BufTy).Contents (Elt F)) (hr : InRange x2) (k : S64x2x1.Idx) :
    val_main_call0_v11 (F := F) x2 k = 1#1 := by
  obtain ⟨b, s, z, rfl⟩ : ∃ b s z, k = ix3 b s z := ⟨k 0, k 1, k 2, eq_ix3 k⟩
  rw [val_main_call0_v11_apply, val_main_call0_v7_apply, val_main_call0_v10_apply, idx_word x2 hr,
    val_main_call0_v6_apply, val_main_call0_c_2_apply, val_main_call0_v9_apply, val_main_call0_v8_apply,
    val_main_call0_c_1_apply]
  exact mask_word _ (word_zero_or_one _ (hr _).1 (hr _).2)

/-- Reduced over its last axis, the mask is 1 at every table entry. -/
theorem mask_one (x2 : (⟨S64x2, .i32⟩ : BufTy).Contents (Elt F)) (hr : InRange x2) (j : S64x2.Idx) :
    val_main_call0_v12 (F := F) x2 j = 1#1 := by
  unfold val_main_call0_v12
  rw [Host.reduce_eq_foldl, show val_main_call0_v11 (F := F) x2 = fun _ => 1#1 from funext (mask_elem x2 hr)]
  exact foldl_andi_ones _

/-! ## The gather at an index -/

/-- The gather's dimension numbers: operand [64, 256, 256, 2, 3] with batching axis 0 and indexed (collapsed) axis 3,
    the other three axes taken whole; one index word per (sample, slot). -/
abbrev gd : GatherDims S64x256x256x2x3 S64x2x1 S64x256x256x2x3 :=
  gather_S64x256x256x2x3_S64x2x1_S64x256x256x2x3_124_3_0_0_3_2_125625613

section Gather
variable (idx : IVec S64x2x1 32) (b : Fin 64) (h : Fin 256) (w : Fin 256) (s : Fin 2) (c : Fin 3)

/-- Only the indexed axis 3 has a start index. -/
theorem not_mem_startIndexMap (a : Fin 5) (ha : a ≠ 3) : a ∉ gd.startIndexMap := by
  show a ∉ [(3 : Fin 5)]
  exact fun hm => ha (List.mem_singleton.mp hm)

/-- Off the indexed axis the slice starts at 0. -/
theorem start_eq_zero (a : Fin 5) (ha : a ≠ 3) : gd.start (ix5 b h w s c) idx a = 0 := by
  unfold GatherDims.start; rw [dif_neg (not_mem_startIndexMap a ha)]

/-- An axis other than 0 and 3 is taken whole: it is neither collapsed nor batching. -/
theorem mem_sKept_of (a : Fin 5) (h0 : a ≠ 0) (h3 : a ≠ 3) : a ∈ gd.sKept ∧ a ∉ gd.operandBatchingDims := by
  have hb : a ∉ gd.operandBatchingDims := by
    show a ∉ [(0 : Fin 5)]
    exact fun hm => h0 (List.mem_singleton.mp hm)
  have hc : a ∉ gd.collapsedSliceDims := by
    show a ∉ [(3 : Fin 5)]
    exact fun hm => h3 (List.mem_singleton.mp hm)
  exact ⟨(GatherDims.mem_sKept _ _).2 ⟨hc, hb⟩, hb⟩

/-- On the batching axis the operand index is the result's sample. -/
theorem operandIdx_0 : (gd.operandIdx (ix5 b h w s c) idx 0).val = b.val := by
  show gd.start (ix5 b h w s c) idx 0 + gd.batchCoord (ix5 b h w s c) 0 + gd.offCoord (ix5 b h w s c) 0 = _
  have h0 : (0 : Fin 5) ∈ gd.operandBatchingDims := List.mem_singleton.mpr rfl
  rw [GatherDims.start_batching _ _ _ _ h0,
    GatherDims.offCoord_eq_zero _ _ _ (fun hm => ((GatherDims.mem_sKept _ _).mp hm).2 h0)]
  unfold GatherDims.batchCoord
  rw [dif_pos h0]
  simp only [Nat.zero_add, Nat.add_zero]
  rfl
/-- On the row axis it is the result's row. -/
theorem operandIdx_1 : (gd.operandIdx (ix5 b h w s c) idx 1).val = h.val := by
  show gd.start (ix5 b h w s c) idx 1 + gd.batchCoord (ix5 b h w s c) 1 + gd.offCoord (ix5 b h w s c) 1 = _
  obtain ⟨hk, hb⟩ := mem_sKept_of 1 (by decide) (by decide)
  rw [start_eq_zero idx b h w s c 1 (by decide), GatherDims.batchCoord_eq_zero _ _ _ hb]
  unfold GatherDims.offCoord
  rw [dif_pos hk]
  simp only [Nat.zero_add, Nat.add_zero]
  rfl
/-- On the column axis it is the result's column. -/
theorem operandIdx_2 : (gd.operandIdx (ix5 b h w s c) idx 2).val = w.val := by
  show gd.start (ix5 b h w s c) idx 2 + gd.batchCoord (ix5 b h w s c) 2 + gd.offCoord (ix5 b h w s c) 2 = _
  obtain ⟨hk, hb⟩ := mem_sKept_of 2 (by decide) (by decide)
  rw [start_eq_zero idx b h w s c 2 (by decide), GatherDims.batchCoord_eq_zero _ _ _ hb]
  unfold GatherDims.offCoord
  rw [dif_pos hk]
  simp only [Nat.zero_add, Nat.add_zero]
  rfl
/-- On the channel axis it is the result's channel. -/
theorem operandIdx_4 : (gd.operandIdx (ix5 b h w s c) idx 4).val = c.val := by
  show gd.start (ix5 b h w s c) idx 4 + gd.batchCoord (ix5 b h w s c) 4 + gd.offCoord (ix5 b h w s c) 4 = _
  obtain ⟨hk, hb⟩ := mem_sKept_of 4 (by decide) (by decide)
  rw [start_eq_zero idx b h w s c 4 (by decide), GatherDims.batchCoord_eq_zero _ _ _ hb]
  unfold GatherDims.offCoord
  rw [dif_pos hk]
  simp only [Nat.zero_add, Nat.add_zero]
  rfl

/-- The index word a result element reads: the index array at (sample, slot, 0). -/
theorem siIdx_eq :
    gd.siIdx (ix5 b h w s c) ⟨List.idxOf (3 : Fin 5) gd.startIndexMap,
      List.idxOf_lt_length_iff.2 (List.mem_singleton.mpr rfl)⟩ = ix3 b s (0 : Fin 1) := by
  funext a; refine Fin.ext ?_
  match a with
  | ⟨0, _⟩ => rfl
  | ⟨1, _⟩ => rfl
  | ⟨2, _⟩ => rfl

/-- On the indexed axis the operand index is the index word, read signed and clamped into [0, 1]. -/
theorem operandIdx_3 :
    (gd.operandIdx (ix5 b h w s c) idx 3).val = min (idx (ix3 b s (0 : Fin 1))).toInt.toNat 1 := by
  show gd.start (ix5 b h w s c) idx 3 + gd.batchCoord (ix5 b h w s c) 3 + gd.offCoord (ix5 b h w s c) 3 = _
  have hb : (3 : Fin 5) ∉ gd.operandBatchingDims := by
    show (3 : Fin 5) ∉ [(0 : Fin 5)]; decide
  rw [GatherDims.batchCoord_eq_zero _ _ _ hb,
    GatherDims.offCoord_eq_zero _ _ _ (fun hm => ((GatherDims.mem_sKept _ _).mp hm).1 (List.mem_singleton.mpr rfl))]
  simp only [Nat.add_zero]
  unfold GatherDims.start
  rw [dif_pos (show (3 : Fin 5) ∈ gd.startIndexMap from List.mem_singleton.mpr rfl), siIdx_eq]
  rfl

/-- THE GATHER READ AT (b, h, w, s, c): the operand at the same sample, pixel and channel, its indexed axis at the
    position \`p\` the clamped index word names. -/
theorem gather_apply {α : Type} (x : S64x256x256x2x3.Idx → α) (p : Fin 2)
    (hp : p.val = min (idx (ix3 b s (0 : Fin 1))).toInt.toNat 1) :
    Host.gather gd x idx (ix5 b h w s c) = x (ix5 b h w p c) := by
  unfold Host.gather
  congr 1
  funext a; refine Fin.ext ?_
  match a with
  | ⟨0, _⟩ => exact operandIdx_0 idx b h w s c
  | ⟨1, _⟩ => exact operandIdx_1 idx b h w s c
  | ⟨2, _⟩ => exact operandIdx_2 idx b h w s c
  | ⟨3, _⟩ => exact (operandIdx_3 idx b h w s c).trans hp.symm
  | ⟨4, _⟩ => exact operandIdx_4 idx b h w s c

end Gather

/-! ## The stacked images at an index -/

section Stack
variable (x0 x1 : (⟨S64x256x256x3, .f32⟩ : BufTy).Contents (Elt F))
variable (b : Fin 64) (h : Fin 256) (w : Fin 256) (c : Fin 3)

/-- Position 0 of the stacked axis holds the SECOND stack's image. -/
theorem stack_zero : val_main_v2 (F := F) x0 x1 (ix5 b h w (0 : Fin 2) c) = x1 (ix4 b h w c) := by
  have hidx : idx_main_v0 (ix5 b h w (0 : Fin 1) c) = ix4 b h w c := by
    funext a
    match a with
    | ⟨0, _⟩ => rfl
    | ⟨1, _⟩ => rfl
    | ⟨2, _⟩ => rfl
    | ⟨3, _⟩ => rfl
  unfold val_main_v2
  rw [concatenate_pair_apply_left (t := S64x256x256x2x3) (s₁ := S64x256x256x1x3) (s₂ := S64x256x256x1x3) (3 : Fin 5) _ _ _ (ix5 b h w (0 : Fin 2) c) rfl (ix5 b h w (0 : Fin 1) c)
      (fun a => match a with
        | ⟨0, _⟩ => rfl
        | ⟨1, _⟩ => rfl
        | ⟨2, _⟩ => rfl
        | ⟨3, _⟩ => rfl
        | ⟨4, _⟩ => rfl),
    val_main_v0_apply, hidx]

/-- Position 1 of the stacked axis holds the FIRST stack's image. -/
theorem stack_one : val_main_v2 (F := F) x0 x1 (ix5 b h w (1 : Fin 2) c) = x0 (ix4 b h w c) := by
  have hidx : idx_main_v1 (ix5 b h w (0 : Fin 1) c) = ix4 b h w c := by
    funext a
    match a with
    | ⟨0, _⟩ => rfl
    | ⟨1, _⟩ => rfl
    | ⟨2, _⟩ => rfl
    | ⟨3, _⟩ => rfl
  unfold val_main_v2
  rw [concatenate_pair_apply_right (t := S64x256x256x2x3) (s₁ := S64x256x256x1x3) (s₂ := S64x256x256x1x3) (3 : Fin 5) _ _ _ (ix5 b h w (1 : Fin 2) c) rfl rfl (ix5 b h w (0 : Fin 1) c)
      (fun a hne => match a, hne with
        | ⟨0, _⟩, _ => rfl
        | ⟨1, _⟩, _ => rfl
        | ⟨2, _⟩, _ => rfl
        | ⟨3, _⟩, hne => absurd rfl hne
        | ⟨4, _⟩, _ => rfl)
      rfl,
    val_main_v1_apply, hidx]

end Stack

/-! ## The reference's result -/

/-- On tables whose words are 0 or 1 the reference computes the selection: the index needs no wrap-around, the gather's
    range mask is 1 everywhere, and the gather reads the stacked axis at the word — the second stack's image at 0, the
    first stack's at 1. -/
theorem ref_chosen_gen (x0 x1 : (⟨S64x256x256x3, .f32⟩ : BufTy).Contents (Elt F))
    (x2 : (⟨S64x2, .i32⟩ : BufTy).Contents (Elt F)) (hr : InRange x2) :
    val_main_v4 (F := F) x0 x1 x2 = chosen x0 x1 x2 := by
  funext i
  obtain ⟨b, h, w, s, c, rfl⟩ : ∃ b h w s c, i = ix5 b h w s c := ⟨i 0, i 1, i 2, i 3, i 4, eq_ix5 i⟩
  rw [val_main_v4_apply, val_main_call0_v14_apply, mask_one x2 hr, select_one, chosen_ix5]
  unfold val_main_call0_v13
  have hword := idx_word (F := F) x2 hr b s (0 : Fin 1)
  rcases word_zero_or_one _ (hr (ix2 b s)).1 (hr (ix2 b s)).2 with hw | hw
  · have e : IntOp.cmpi .eq (0#32 : BitVec 32) 0#32 = 1#1 := by decide
    rw [gather_apply _ b h w s c _ (0 : Fin 2) (by rw [hword, hw]; decide), stack_zero, hw, e, select_one]
  · have e : IntOp.cmpi .eq (1#32 : BitVec 32) 0#32 = 0#1 := by decide
    rw [gather_apply _ b h w s c _ (1 : Fin 2) (by rw [hword, hw]; decide), stack_one, hw, e, select_zero]

/-- The same at the idealized floats: the reference's result is the selection. -/
theorem ref_chosen (x0 x1 : (⟨Cert.ReferenceIdeal.S64x256x256x3, .f32⟩ : BufTy).Contents (Elt Ideal))
    (x2 : (⟨Cert.ReferenceIdeal.S64x2, .i32⟩ : BufTy).Contents (Elt Ideal)) (h : Cert.Shuffle.InRange x2) :
    Cert.ReferenceIdeal.ReadP.val_main_v4 (F := Ideal) x0 x1 x2 = Cert.Shuffle.chosen x0 x1 x2 :=
  ref_chosen_gen x0 x1 x2 h

end Cert.Shuffle

end
-- ==== Proof.PreRange.lean ====
/-
  The printed precondition's last conjunct, read back at one entry of the table.

  The precondition ends in the conjunction, over every entry of the table, of "the word is at least 0" and "the word
  is below 2" (both signed). The conjunction over all entries is a reduction by `and` from 1 into an array of one
  index, so its value 1 gives the value 1 of each entry's pair of comparisons, and the pair splits into the two.
-/
import proofs.«405880_j66494683676757_3_alg».proof.Proof.Spec
import proofs.«405880_j66494683676757_3_alg».proof.Pre_finite_inputs
import Idealize.ShloMosaic.Lib.ReduceAll

namespace Cert.Shuffle

open Idealize.ShloMosaic Idealize.ShloMosaic.ValueIdx

/-- An array without axes has one index. -/
instance subsingleton_scalarIdx : Subsingleton Cert.Pre_finite_inputs.S_.Idx :=
  ⟨fun _ _ => funext fun d => d.elim0⟩

/-- Where the printed precondition holds, every word of the table is 0 or 1 as a signed integer: at least 0 and
    below 2. -/
theorem inRange_of_pre {F : FTy → Type} [FloatOps F] [Cert.Pre_finite_inputs.Facts]
    (a0 a1 : FVec F Cert.Pre_finite_inputs.S64x256x256x3 .f32) (a2 : IVec Cert.Pre_finite_inputs.S64x2 32)
    (h : Cert.Pre_finite_inputs.fn (F := F) a0 a1 a2 = fun _ => 1#1) : Cert.Shuffle.InRange a2 := by
  intro j
  -- the predicate's one element
  have h0 := congrFun h ValueIdx.ix0
  dsimp only [Cert.Pre_finite_inputs.fn] at h0
  -- its last conjunct is the conjunction over all entries
  obtain ⟨_, hall⟩ := IntOp.andi_eq_one.1 h0
  -- which holds at entry `j`
  have hj := Host.reduce_andi_all _ _ _ _ _ hall j
  -- and is there the pair of comparisons against the constants 0 and 2
  obtain ⟨hge, hlt⟩ := IntOp.andi_eq_one.1 hj
  exact ⟨hge, hlt⟩

end Cert.Shuffle
-- ==== Proof.KBlock.lean ====
/-
  What one grid point of the kernel leaves in its output block.

  At grid point i the kernel holds slabs 4 i … 4 i + 3 of both image stacks (blocks [4, 256, 768], a pixel row flattened
  to 768 lanes) and the whole table of words. For each slab j and slot s it tests the table's word at row 4 i + j,
  column s, against zero and stores, as the [1, 1, 256, 768] tile (j, s) of the output block [4, 2, 256, 768], the
  second stack's slab when the word is zero and the first stack's slab otherwise. The eight tiles are disjoint and
  fill the block, so the block is ONE function of its index: at (j, s, r, l) the selected slab's element (r, l).
-/
import proofs.«405880_j66494683676757_3_alg».proof.Proof.Gen.KernelIdeal.Frame
import Idealize.ShloMosaic.Lib.Pipeline.Value
import Idealize.ShloMosaic.Lib.ValueIdx
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Sel
open Cert.KernelIdeal Cert.KernelIdeal.Gen
variable {F : FTy → Type} [FloatOps F]

/-- One store's payload: the selected slab, reshaped to a [1, 1, 256, 768] tile. -/
def tile (w : BitVec 32) (a1 a0 : Vec F S1x256x768 .f32) : FVec F S1x1x256x768 .f32 :=
  shapeCast S1x1x256x768 (Scalar.select (Scalar.cmpi .eq w 0#32) (shapeCast S256x768 a1 shapeCasts_S1x256x768_S256x768)
    (shapeCast S256x768 a0 shapeCasts_S1x256x768_S256x768)) shapeCasts_S256x768_S1x1x256x768

/-- Dropping the leading unit axis of a loaded slab keeps the element at (r, l). -/
theorem slab_apply (a : Vec F S1x256x768 .f32) (r : Fin 256) (l : Fin 768) :
    shapeCast S256x768 a shapeCasts_S1x256x768_S256x768 (ix2 r l) = a (ix3 (0 : Fin 1) r l) :=
  shapeCast_apply a shapeCasts_S1x256x768_S256x768 (ix2 r l) (ix3 (0 : Fin 1) r l) (by
    rw [Shape.rowMajor_val_three, Shape.rowMajor_val_two]
    show ((0 : Fin 1).val * 256 + r.val) * 768 + l.val = r.val * 768 + l.val
    simp)

/-- The tile at (·, ·, r, l): the second slab's element where the word is zero, the first slab's otherwise. -/
theorem tile_apply (w : BitVec 32) (a1 a0 : Vec F S1x256x768 .f32) (u v : Fin 1) (r : Fin 256) (l : Fin 768) :
    tile w a1 a0 (ix4 u v r l) = Scalar.select (Scalar.cmpi .eq w 0#32) (a1 (ix3 (0 : Fin 1) r l)) (a0 (ix3 (0 : Fin 1) r l)) := by
  unfold tile
  rw [shapeCast_apply _ shapeCasts_S256x768_S1x1x256x768 (ix4 u v r l) (ix2 r l) (by
    rw [Shape.rowMajor_val_two, Shape.rowMajor_val_four]
    show r.val * 768 + l.val = ((u.val * 1 + v.val) * 256 + r.val) * 768 + l.val
    have := u.isLt; have := v.isLt; omega)]
  unfold Scalar.select
  split
  · exact slab_apply a1 r l
  · exact slab_apply a0 r l

/-- What the body leaves in the output block, as one function of the block index (j, s, r, l): per slab j and slot s the
    second input's slab where the word W j s is zero, the first input's otherwise. -/
def blockFn (W : Fin 4 → Fin 2 → BitVec 32) (X1 X0 : Vec F S4x256x768 .f32) : Vec F S4x2x256x768 .f32 :=
  fun y => Scalar.select (Scalar.cmpi .eq (W ⟨(y 0).val, (y 0).isLt⟩ ⟨(y 1).val, (y 1).isLt⟩) 0#32)
    (X1 (ix3 (n0 := 4) (n1 := 256) (n2 := 768) ⟨(y 0).val, (y 0).isLt⟩ ⟨(y 2).val, (y 2).isLt⟩ ⟨(y 3).val, (y 3).isLt⟩))
    (X0 (ix3 (n0 := 4) (n1 := 256) (n2 := 768) ⟨(y 0).val, (y 0).isLt⟩ ⟨(y 2).val, (y 2).isLt⟩ ⟨(y 3).val, (y 3).isLt⟩))

/-- Tile (j, s) agrees with the block function: its element (r, l) sits at block index (j, s, r, l), and the slab loaded
    at offset j of an input block is that block's slab j. -/
theorem piece_agrees (W : Fin 4 → Fin 2 → BitVec 32) (X1 X0 : Vec F S4x256x768 .f32) (j : Fin 4) (s : Fin 2)
    (inb4 : ∀ a, (![j.val, s.val, 0, 0] : Fin 4 → Nat) a + S1x1x256x768.size a ≤ S4x2x256x768.size a)
    (inb3 : ∀ a, (![j.val, 0, 0] : Fin 3 → Nat) a + S1x256x768.size a ≤ S4x256x768.size a)
    (x : S1x1x256x768.Idx) :
    tile (W j s) (View.ld X1 (Rect.unit (s := S4x256x768) ![j.val, 0, 0] S1x256x768.size inb3))
        (View.ld X0 (Rect.unit (s := S4x256x768) ![j.val, 0, 0] S1x256x768.size inb3)) x
      = blockFn W X1 X0 ((Rect.unit (s := S4x2x256x768) ![j.val, s.val, 0, 0] S1x1x256x768.size inb4).emb x) := by
  obtain ⟨u, v, r, l, rfl⟩ : ∃ (u v : Fin 1) (r : Fin 256) (l : Fin 768), x = ix4 u v r l := ⟨x 0, x 1, x 2, x 3, eq_ix4 x⟩
  rw [tile_apply]
  unfold blockFn
  have c0 : ((Rect.unit (s := S4x2x256x768) ![j.val, s.val, 0, 0] S1x1x256x768.size inb4).emb (ix4 u v r l) 0).val = j.val := by
    show j.val + 1 * u.val = j.val; have := u.isLt; omega
  have c1 : ((Rect.unit (s := S4x2x256x768) ![j.val, s.val, 0, 0] S1x1x256x768.size inb4).emb (ix4 u v r l) 1).val = s.val := by
    show s.val + 1 * v.val = s.val; have := v.isLt; omega
  have c2 : ((Rect.unit (s := S4x2x256x768) ![j.val, s.val, 0, 0] S1x1x256x768.size inb4).emb (ix4 u v r l) 2).val = r.val := by
    show 0 + 1 * r.val = r.val; omega
  have c3 : ((Rect.unit (s := S4x2x256x768) ![j.val, s.val, 0, 0] S1x1x256x768.size inb4).emb (ix4 u v r l) 3).val = l.val := by
    show 0 + 1 * l.val = l.val; omega
  have hI : (Rect.unit (s := S4x256x768) ![j.val, 0, 0] S1x256x768.size inb3).idx (ix3 (0 : Fin 1) r l)
      = ix3 (n0 := 4) (n1 := 256) (n2 := 768) j r l := by
    funext a; apply Fin.ext
    match a with
    | ⟨0, _⟩ => show j.val + 1 * (0 : Fin 1).val = j.val; simp
    | ⟨1, _⟩ => show 0 + 1 * r.val = r.val; omega
    | ⟨2, _⟩ => show 0 + 1 * l.val = l.val; omega
  show Scalar.select _ (X1 ((Rect.unit (s := S4x256x768) ![j.val, 0, 0] S1x256x768.size inb3).idx (ix3 (0 : Fin 1) r l)))
      (X0 ((Rect.unit (s := S4x256x768) ![j.val, 0, 0] S1x256x768.size inb3).idx (ix3 (0 : Fin 1) r l))) = _
  rw [hI]
  simp only [c0, c1, c2, c3, Fin.eta]

/-- The word the body tests for slab j and slot s at grid point i: the table's entry at row 4 i + j, column s. -/
def wordAt (T : S64x2.Idx → BitVec 32) (i : grid0.Coords) (j : Fin 4) (s : Fin 2) : BitVec 32 :=
  T (ix2 (n0 := 64) (n1 := 2) ⟨4 * (i 0).val + j.val, by
    have h : (i 0).val < 16 := (i 0).isLt
    have := j.isLt; omega⟩ s)

/-- A word loaded from the table at row n = 4 i + j and column s is the table's entry there. -/
theorem word_eq (T : S64x2.Idx → Elt F .i32) (i : grid0.Coords) (j : Fin 4) (s : Fin 2) (n : Nat)
    (hn : n = 4 * (i 0).val + j.val)
    (inbW : ∀ a, (![n, s.val] : Fin 2 → Nat) a + (![1, 1] : Fin 2 → Nat) a ≤ S64x2.size a)
    (h1 : 0 < (Rect.unit (s := S64x2) ![n, s.val] ![1, 1] inbW).shape.numel) :
    View.ld (Val := Elt F) (e' := .i32) T (Rect.unit (s := S64x2) ![n, s.val] ![1, 1] inbW) (Shape.Idx.first h1) = wordAt T i j s := by
  subst hn
  unfold wordAt
  show T _ = T _
  congr 1
  funext a; apply Fin.ext
  match a with
  | ⟨0, _⟩ => show 4 * (i 0).val + j.val + 1 * 0 = 4 * (i 0).val + j.val; omega
  | ⟨1, _⟩ => show s.val + 1 * 0 = s.val; omega

/-- THE BLOCK a grid point leaves: the block function at the table's words for that point and the two input blocks;
    every store's tile agrees with it and the tiles cover the block. -/
theorem out_A (c : Dev nD) (i : grid0.Coords) (arg2 : Memref sig .tc .vmem S4x256x768 .f32) (harg2 : arg2.IsWhole)
    (arg3 : Memref sig .tc .vmem S4x256x768 .f32) (harg3 : arg3.IsWhole) (arg4 : Memref sig .tc .vmem S4x2x256x768 .f32)
    (harg4 : arg4.IsWhole) (x0 : Vec F S4x256x768 .f32) (x1 : Vec F S4x256x768 .f32) (xt0 : TbBuf0 (F := F) c tbM0_0) :
    out0_A_2 c i arg2 harg2 arg3 harg3 arg4 harg4 x0 x1 xt0 = blockFn (wordAt xt0 i) x1 x0 := by
  unfold out0_A_2
  rw [View.read_writes_eq_canon _ _ _ (cover0_A_2 c i arg2 harg2 arg3 harg3 arg4 harg4 x0 x1 xt0)]
  funext y
  refine View.canon_apply_of_pieces (blockFn (wordAt xt0 i) x1 x0) _ ?_ y (cover0_A_2 c i arg2 harg2 arg3 harg3 arg4 harg4 x0 x1 xt0 y)
  unfold kernelRun0_A
  dsimp only
  sl_unfold_words
  simp only [View.readAt_eq_ld, harg2.read_unread, harg3.read_unread]
  intro p hp x
  simp only [List.mem_cons, List.not_mem_nil, or_false] at hp
  rcases hp with rfl | rfl | rfl | rfl | rfl | rfl | rfl | rfl
  · exact (congrFun (congrArg (fun w => tile w _ _) (word_eq xt0 i ⟨3, by decide⟩ ⟨1, by decide⟩ _ (congrFun (k0_off2_eq i ⟨3, by decide⟩) 0) _ _)) x).trans
      (piece_agrees (wordAt xt0 i) x1 x0 ⟨3, by decide⟩ ⟨1, by decide⟩ Cert.KernelIdeal.Gen.inb_S4x2x256x768_S1x1x256x768_3_1_0_0 Cert.KernelIdeal.Gen.inb_S4x256x768_S1x256x768_3_0_0 x)
  · exact (congrFun (congrArg (fun w => tile w _ _) (word_eq xt0 i ⟨3, by decide⟩ ⟨0, by decide⟩ _ (congrFun (k0_off1_eq i ⟨3, by decide⟩) 0) _ _)) x).trans
      (piece_agrees (wordAt xt0 i) x1 x0 ⟨3, by decide⟩ ⟨0, by decide⟩ Cert.KernelIdeal.Gen.inb_S4x2x256x768_S1x1x256x768_3_0_0_0 Cert.KernelIdeal.Gen.inb_S4x256x768_S1x256x768_3_0_0 x)
  · exact (congrFun (congrArg (fun w => tile w _ _) (word_eq xt0 i ⟨2, by decide⟩ ⟨1, by decide⟩ _ (congrFun (k0_off2_eq i ⟨2, by decide⟩) 0) _ _)) x).trans
      (piece_agrees (wordAt xt0 i) x1 x0 ⟨2, by decide⟩ ⟨1, by decide⟩ Cert.KernelIdeal.Gen.inb_S4x2x256x768_S1x1x256x768_2_1_0_0 Cert.KernelIdeal.Gen.inb_S4x256x768_S1x256x768_2_0_0 x)
  · exact (congrFun (congrArg (fun w => tile w _ _) (word_eq xt0 i ⟨2, by decide⟩ ⟨0, by decide⟩ _ (congrFun (k0_off1_eq i ⟨2, by decide⟩) 0) _ _)) x).trans
      (piece_agrees (wordAt xt0 i) x1 x0 ⟨2, by decide⟩ ⟨0, by decide⟩ Cert.KernelIdeal.Gen.inb_S4x2x256x768_S1x1x256x768_2_0_0_0 Cert.KernelIdeal.Gen.inb_S4x256x768_S1x256x768_2_0_0 x)
  · exact (congrFun (congrArg (fun w => tile w _ _) (word_eq xt0 i ⟨1, by decide⟩ ⟨1, by decide⟩ _ (congrFun (k0_off2_eq i ⟨1, by decide⟩) 0) _ _)) x).trans
      (piece_agrees (wordAt xt0 i) x1 x0 ⟨1, by decide⟩ ⟨1, by decide⟩ Cert.KernelIdeal.Gen.inb_S4x2x256x768_S1x1x256x768_1_1_0_0 Cert.KernelIdeal.Gen.inb_S4x256x768_S1x256x768_1_0_0 x)
  · exact (congrFun (congrArg (fun w => tile w _ _) (word_eq xt0 i ⟨1, by decide⟩ ⟨0, by decide⟩ _ (congrFun (k0_off1_eq i ⟨1, by decide⟩) 0) _ _)) x).trans
      (piece_agrees (wordAt xt0 i) x1 x0 ⟨1, by decide⟩ ⟨0, by decide⟩ Cert.KernelIdeal.Gen.inb_S4x2x256x768_S1x1x256x768_1_0_0_0 Cert.KernelIdeal.Gen.inb_S4x256x768_S1x256x768_1_0_0 x)
  · exact (congrFun (congrArg (fun w => tile w _ _) (word_eq xt0 i ⟨0, by decide⟩ ⟨1, by decide⟩ _ (congrFun (k0_off2_eq i ⟨0, by decide⟩) 0) _ _)) x).trans
      (piece_agrees (wordAt xt0 i) x1 x0 ⟨0, by decide⟩ ⟨1, by decide⟩ Cert.KernelIdeal.Gen.inb_S4x2x256x768_S1x1x256x768_0_1_0_0 Cert.KernelIdeal.Gen.inb_S4x256x768_S1x256x768_0_0_0 x)
  · exact (congrFun (congrArg (fun w => tile w _ _) (word_eq xt0 i ⟨0, by decide⟩ ⟨0, by decide⟩ _ (congrFun (k0_off1_eq i ⟨0, by decide⟩) 0) _ _)) x).trans
      (piece_agrees (wordAt xt0 i) x1 x0 ⟨0, by decide⟩ ⟨0, by decide⟩ Cert.KernelIdeal.Gen.inb_S4x2x256x768_S1x1x256x768_0_0_0_0 Cert.KernelIdeal.Gen.inb_S4x256x768_S1x256x768_0_0_0 x)

end Cert.KernelIdeal.Sel
end
-- ==== Proof.KArray.lean ====
/-
  From the blocks to the whole output array of the region.

  The region runs over 16 grid points; point t stages slabs 4 t … 4 t + 3 of the two reshaped image stacks
  ([64, 256, 768]: an image row flattened to 768 lanes) and writes back block t, [4, 2, 256, 768], of the output array
  [64, 2, 256, 768]. By the block lemma, block t is the selection for samples 4 t … 4 t + 3; the index maps, decided
  over the 16 points, put block t at rows 4 t … 4 t + 3 of every array; so block t is the restriction to those rows of
  ONE function of the array index: at (b, s, r, l) the second staged array's element (b, r, l) where the table's word
  at (b, s) is zero, the first staged array's otherwise. The blocks cover the array (row b lies in block b / 4), so
  after the region the array holds that function.
-/
import proofs.«405880_j66494683676757_3_alg».proof.Proof.KBlock

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Sel
open Cert.KernelIdeal Cert.KernelIdeal.Gen
variable {F : FTy → Type} [FloatOps F]
variable (m : (ℓ : Loc nD τ sig) → Buf (Elt F) ℓ) (ρ : Dev nD → PrngReg)

/-- The output array as one function of the table and the two staged arrays. -/
def arrFn (T : S64x2.Idx → BitVec 32) (A1 A0 : S64x256x768.Idx → Elt F .f32) : S64x2x256x768.Idx → Elt F .f32 :=
  fun i => Scalar.select (Scalar.cmpi .eq (T (ix2 (n0 := 64) (n1 := 2) ⟨(i 0).val, (i 0).isLt⟩ ⟨(i 1).val, (i 1).isLt⟩)) 0#32)
    (A1 (ix3 (n0 := 64) (n1 := 256) (n2 := 768) ⟨(i 0).val, (i 0).isLt⟩ ⟨(i 2).val, (i 2).isLt⟩ ⟨(i 3).val, (i 3).isLt⟩))
    (A0 (ix3 (n0 := 64) (n1 := 256) (n2 := 768) ⟨(i 0).val, (i 0).isLt⟩ ⟨(i 2).val, (i 2).isLt⟩ ⟨(i 3).val, (i 3).isLt⟩))

/-- The printed index maps over the grid: every window's block index at point t is (t, 0, …), and the grid's one
    coordinate at point t is t. -/
theorem idx_facts : ∀ t : Fin grid0.N, cc0_transform_0 (grid0.coords t) = ![t.val, 0, 0]
    ∧ cc0_transform_1 (grid0.coords t) = ![t.val, 0, 0]
    ∧ cc0_transform_2 (grid0.coords t) = ![t.val, 0, 0, 0]
    ∧ ((grid0.coords t) 0).val = t.val := by decide +kernel

/-- The two input blocks at a point, at their literal type. -/
abbrev blk0 (hO : Ok m) (c : Dev nD) (t : Fin (cfgM m hO).N) : Vec F S4x256x768 .f32 := iblk m hO c 0 t
abbrev blk1 (hO : Ok m) (c : Dev nD) (t : Fin (cfgM m hO).N) : Vec F S4x256x768 .f32 := iblk m hO c 1 t

/-- What the body leaves at point t: the block function at that point's words and input blocks. -/
theorem outsAt_eq (hO : Ok m) (c : Dev nD) (t : Fin (cfgM m hO).N) :
    outsAt0 m hO c t = blockFn (wordAt (tbl m 0) (grid0.coords t)) (blk1 m hO c t) (blk0 m hO c t) :=
  out_A c (grid0.coords t) (ms0_0 m hO t) (hs0_0 m hO t) (ms0_1 m hO t) (hs0_1 m hO t) (ms0_2 m hO t) (hs0_2 m hO t)
    (blk0 m hO c t) (blk1 m hO c t) (tbl m 0)

/-- Input block 1 (the second stack's) at point t reads the staged array's slabs 4 t … 4 t + 3. -/
theorem blk1_apply (hO : Ok m) (c : Dev nD) (t : Fin (cfgM m hO).N) (a : Fin 4) (r : Fin 256) (l : Fin 768)
    (h : 4 * t.val + a.val < 64) :
    blk1 m hO c t (ix3 a r l) = V m c main_v1 (ix3 (n0 := 64) (n1 := 256) (n2 := 768) ⟨4 * t.val + a.val, h⟩ r l) := by
  obtain ⟨e0, e1, e2, e3⟩ := idx_facts t
  show V m c main_v1 ((((cfgM m hO).win 1).blk t).view.emb (ix3 a r l)) = _
  congr 1
  funext k; apply Fin.ext
  match k with
  | ⟨0, _⟩ => show cc0_transform_1 (grid0.coords t) (0 : Fin 3) * 4 + 1 * a.val = 4 * t.val + a.val; rw [e1]; show t.val * 4 + 1 * a.val = _; omega
  | ⟨1, _⟩ => show cc0_transform_1 (grid0.coords t) (1 : Fin 3) * 256 + 1 * r.val = r.val; rw [e1]; show 0 * 256 + 1 * r.val = _; omega
  | ⟨2, _⟩ => show cc0_transform_1 (grid0.coords t) (2 : Fin 3) * 768 + 1 * l.val = l.val; rw [e1]; show 0 * 768 + 1 * l.val = _; omega

/-- Input block 0 (the first stack's) likewise. -/
theorem blk0_apply (hO : Ok m) (c : Dev nD) (t : Fin (cfgM m hO).N) (a : Fin 4) (r : Fin 256) (l : Fin 768)
    (h : 4 * t.val + a.val < 64) :
    blk0 m hO c t (ix3 a r l) = V m c main_v0 (ix3 (n0 := 64) (n1 := 256) (n2 := 768) ⟨4 * t.val + a.val, h⟩ r l) := by
  obtain ⟨e0, e1, e2, e3⟩ := idx_facts t
  show V m c main_v0 ((((cfgM m hO).win 0).blk t).view.emb (ix3 a r l)) = _
  congr 1
  funext k; apply Fin.ext
  match k with
  | ⟨0, _⟩ => show cc0_transform_0 (grid0.coords t) (0 : Fin 3) * 4 + 1 * a.val = 4 * t.val + a.val; rw [e0]; show t.val * 4 + 1 * a.val = _; omega
  | ⟨1, _⟩ => show cc0_transform_0 (grid0.coords t) (1 : Fin 3) * 256 + 1 * r.val = r.val; rw [e0]; show 0 * 256 + 1 * r.val = _; omega
  | ⟨2, _⟩ => show cc0_transform_0 (grid0.coords t) (2 : Fin 3) * 768 + 1 * l.val = l.val; rw [e0]; show 0 * 768 + 1 * l.val = _; omega

/-- WHAT POINT t WRITES BACK is block t of the array function: at block index (a, s, r, l) both read the table at
    (4 t + a, s) and the staged arrays at (4 t + a, r, l). -/
theorem flushed_eq (hO : Ok m) (c : Dev nD) (t : Fin (cfgM m hO).N) :
    (dats m hO 0 c).flushed 2 t
      = (((cfgM m hO).win 2).blk t).view.read (Elt F) (arrFn (tbl m 0) (V m c main_v1) (V m c main_v0)) := by
  show ((cfgM m hO).win 2).cut (grid0.coords t) ((dats m hO 0 c).after 2 t) = _
  rw [after0_2, outsAt_eq]
  refine funext fun (y : S4x2x256x768.Idx) => ?_
  obtain ⟨a, s, r, l, rfl⟩ : ∃ (a : Fin 4) (s : Fin 2) (r : Fin 256) (l : Fin 768), (y : S4x2x256x768.Idx) = ix4 a s r l :=
    ⟨y 0, y 1, y 2, y 3, eq_ix4 (n0 := 4) (n1 := 2) (n2 := 256) (n3 := 768) y⟩
  obtain ⟨e0, e1, e2, e3⟩ := idx_facts t
  have ht : t.val < 16 := t.isLt
  have ha : 4 * t.val + a.val < 64 := by have := a.isLt; omega
  show blockFn (wordAt (tbl m 0) (grid0.coords t)) (blk1 m hO c t) (blk0 m hO c t) (ix4 a s r l)
      = arrFn (tbl m 0) (V m c main_v1) (V m c main_v0) ((((cfgM m hO).win 2).blk t).view.emb (ix4 a s r l))
  have hE : ((((cfgM m hO).win 2).blk t).view.emb (ix4 a s r l) : S64x2x256x768.Idx)
      = ix4 (n0 := 64) (n1 := 2) (n2 := 256) (n3 := 768) ⟨4 * t.val + a.val, ha⟩ s r l := by
    funext k; apply Fin.ext
    match k with
    | ⟨0, _⟩ => show cc0_transform_2 (grid0.coords t) (0 : Fin 4) * 4 + 1 * a.val = 4 * t.val + a.val; rw [e2]; show t.val * 4 + 1 * a.val = _; omega
    | ⟨1, _⟩ => show cc0_transform_2 (grid0.coords t) (1 : Fin 4) * 2 + 1 * s.val = s.val; rw [e2]; show 0 * 2 + 1 * s.val = _; omega
    | ⟨2, _⟩ => show cc0_transform_2 (grid0.coords t) (2 : Fin 4) * 256 + 1 * r.val = r.val; rw [e2]; show 0 * 256 + 1 * r.val = _; omega
    | ⟨3, _⟩ => show cc0_transform_2 (grid0.coords t) (3 : Fin 4) * 768 + 1 * l.val = l.val; rw [e2]; show 0 * 768 + 1 * l.val = _; omega
  rw [hE]
  unfold blockFn arrFn wordAt
  show Scalar.select (Scalar.cmpi .eq (tbl m 0 (ix2 (n0 := 64) (n1 := 2) ⟨4 * (grid0.coords t 0).val + a.val, _⟩ s)) 0#32)
        (blk1 m hO c t (ix3 a r l)) (blk0 m hO c t (ix3 a r l))
      = Scalar.select (Scalar.cmpi .eq (tbl m 0 (ix2 (n0 := 64) (n1 := 2) ⟨4 * t.val + a.val, ha⟩ s)) 0#32)
        (V m c main_v1 (ix3 (n0 := 64) (n1 := 256) (n2 := 768) ⟨4 * t.val + a.val, ha⟩ r l))
        (V m c main_v0 (ix3 (n0 := 64) (n1 := 256) (n2 := 768) ⟨4 * t.val + a.val, ha⟩ r l))
  rw [blk1_apply m hO c t a r l ha, blk0_apply m hO c t a r l ha]
  simp only [e3]

/-- Membership in a slice of the whole output array is membership in the slicing rectangle. -/
theorem mem_slice_v2 (r : Rect main_v2.ty.shape) (i : main_v2.ty.shape.Idx) (h : i ∈ r.set) :
    i ∈ ((View.whole main_v2).slice r).set := by
  rw [View.set_slice_whole]; exact h

/-- Every index of the output array is in some point's block: row b of its first axis is in block b / 4. -/
theorem covered (hO : Ok m) (i : S64x2x256x768.Idx) :
    ∃ t : Fin (cfgM m hO).N, ((cfgM m hO).win 2).flush t = true ∧ i ∈ (((cfgM m hO).win 2).blk t).view.set := by
  have hi0 : (i 0).val < 64 := (i 0).isLt
  have hi1 : (i 1).val < 2 := (i 1).isLt
  have hi2 : (i 2).val < 256 := (i 2).isLt
  have hi3 : (i 3).val < 768 := (i 3).isLt
  have hq : (i 0).val / 4 < 16 := by omega
  obtain ⟨t, ht⟩ : ∃ t : Fin (cfgM m hO).N, t.val = (i 0).val / 4 := ⟨⟨(i 0).val / 4, hq⟩, rfl⟩
  refine ⟨t, flush0_2 (adm m hO) t, ?_⟩
  obtain ⟨e0, e1, e2, e3⟩ := idx_facts t
  refine mem_slice_v2 _ i (Rect.mem_set_unit.mpr fun a => ?_)
  match a with
  | ⟨0, _⟩ =>
    show cc0_transform_2 (grid0.coords t) (0 : Fin 4) * 4 ≤ (i 0).val
      ∧ (i 0).val < cc0_transform_2 (grid0.coords t) (0 : Fin 4) * 4 + 4
    rw [e2]; show t.val * 4 ≤ (i 0).val ∧ (i 0).val < t.val * 4 + 4; omega
  | ⟨1, _⟩ =>
    show cc0_transform_2 (grid0.coords t) (1 : Fin 4) * 2 ≤ (i 1).val
      ∧ (i 1).val < cc0_transform_2 (grid0.coords t) (1 : Fin 4) * 2 + 2
    rw [e2]; show 0 * 2 ≤ (i 1).val ∧ (i 1).val < 0 * 2 + 2; omega
  | ⟨2, _⟩ =>
    show cc0_transform_2 (grid0.coords t) (2 : Fin 4) * 256 ≤ (i 2).val
      ∧ (i 2).val < cc0_transform_2 (grid0.coords t) (2 : Fin 4) * 256 + 256
    rw [e2]; show 0 * 256 ≤ (i 2).val ∧ (i 2).val < 0 * 256 + 256; omega
  | ⟨3, _⟩ =>
    show cc0_transform_2 (grid0.coords t) (3 : Fin 4) * 768 ≤ (i 3).val
      ∧ (i 3).val < cc0_transform_2 (grid0.coords t) (3 : Fin 4) * 768 + 768
    rw [e2]; show 0 * 768 ≤ (i 3).val ∧ (i 3).val < 0 * 768 + 768; omega

/-- THE OUTPUT ARRAY after the region: the array function of the table's words and the two staged arrays. -/
theorem final (hO : Ok m) (c : Dev nD) :
    (dats m hO 0 c).arrAt 2 (cfgM m hO).N = arrFn (tbl m 0) (V m c main_v1) (V m c main_v0) :=
  (dats m hO 0 c).arrAt_eq_of_cover 2 (arrFn (tbl m 0) (V m c main_v1) (V m c main_v0))
    (fun t _ => flushed_eq m hO c t) (covered m hO)

end Cert.KernelIdeal.Sel
end
-- ==== Proof.KTail.lean ====
/-
  The kernel's result: the region's array through the two host operations after the region.

  Before the region the two image stacks [64, 256, 256, 3] are reshaped to [64, 256, 768] (lane 3 w + k of a row is
  column w, channel k). After it the output array [64, 2, 256, 768] is reshaped to [64, 2, 256, 256, 3] (the lanes split
  back) and transposed to [64, 256, 256, 2, 3] (the slot axis moved behind the column axis). Read at (b, h, w, s, k)
  that is the region's array at (b, s, h, 3 w + k): the second stack's pixel (b, h, w, k) where the table's word at
  (b, s) is zero, the first stack's otherwise — the selection of the specification.
-/
import proofs.«405880_j66494683676757_3_alg».proof.Proof.KArray
import proofs.«405880_j66494683676757_3_alg».proof.Proof.Spec
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Sel
open Cert.KernelIdeal Cert.KernelIdeal.Gen
variable {F : FTy → Type} [FloatOps F]
variable (m : (ℓ : Loc nD τ sig) → Buf (Elt F) ℓ) (ρ : Dev nD → PrngReg)

/-- The first staged array is the first argument, reshaped. -/
theorem V_v0 (c : Dev nD) : (V m c main_v0 : S64x256x768.Idx → Elt F .f32)
    = shapeCast S64x256x768 (m ((c : Thread nD τ).loc main_arg0)) shapeCasts_S64x256x256x3_S64x256x768 := by
  show StableHlo.after hostOps0 (fun b => m (c, b)) (Proc.devRef .tc main_v0) = _
  after_results
  rfl

/-- The second staged array is the second argument, reshaped. -/
theorem V_v1 (c : Dev nD) : (V m c main_v1 : S64x256x768.Idx → Elt F .f32)
    = shapeCast S64x256x768 (m ((c : Thread nD τ).loc main_arg1)) shapeCasts_S64x256x256x3_S64x256x768 := by
  show StableHlo.after hostOps0 (fun b => m (c, b)) (Proc.devRef .tc main_v1) = _
  after_results
  rfl

/-- The result buffer after the host operations that follow the region: the reshape and the transpose of the region's
    output array, which is the array function. -/
theorem tail_v4 (hO : Ok m) (c : Dev nD) :
    Pipeline.afterTail pcfgs (fun _ => adm m hO) (dats m hO) 0 (V0 m) [hostOps1] c main_v4
      = transpose S64x256x256x2x3 [0, 2, 3, 1, 4]
          (shapeCast S64x2x256x256x3 (arrFn (tbl m 0) (V m c main_v1) (V m c main_v0)) shapeCasts_S64x2x256x768_S64x2x256x256x3)
          transposes_S64x2x256x256x3_S64x256x256x2x3_0_2_3_1_4 := by
  unfold Pipeline.afterTail
  show StableHlo.after hostOps1 _ (Proc.devRef .tc main_v4) = _
  after_results
  have hW : Pipeline.withArrays (Pipeline.pin pcfgs (fun _ => adm m hO) 0).spec c (V0 m c)
      (fun w => (dats m hO 0 c).arrAt w (Pipeline.pin pcfgs (fun _ => adm m hO) 0).N) (Proc.devRef .tc main_v2)
      = arrFn (tbl m 0) (V m c main_v1) (V m c main_v0) :=
    (Pipeline.withArrays_arr (Pipeline.pin pcfgs (fun _ => adm m hO) 0).spec (launch0 (F := F)).win.arr_inj c (V0 m c)
      (fun w => (dats m hO 0 c).arrAt w (Pipeline.pin pcfgs (fun _ => adm m hO) 0).N) 2).trans (final m hO c)
  rw [hW]
  rfl

/-- A staged array is the argument array with each image row flattened: lane 3 w + k of row (b, h) is pixel (b, h, w, k). -/
theorem staged_apply (x : S64x256x256x3.Idx → Elt F .f32) (b : Fin 64) (h : Fin 256) (w : Fin 256) (k : Fin 3)
    (hl : 3 * w.val + k.val < 768) :
    shapeCast S64x256x768 x shapeCasts_S64x256x256x3_S64x256x768 (ix3 b h ⟨3 * w.val + k.val, hl⟩) = x (ix4 b h w k) :=
  shapeCast_apply x shapeCasts_S64x256x256x3_S64x256x768 (ix3 b h ⟨3 * w.val + k.val, hl⟩) (ix4 b h w k) (by
    rw [Shape.rowMajor_val_four, Shape.rowMajor_val_three]
    show ((b.val * 256 + h.val) * 256 + w.val) * 3 + k.val = (b.val * 256 + h.val) * 768 + (3 * w.val + k.val)
    omega)

/-- THE KERNEL'S RESULT AT COORDINATES: the region's array, its lanes split back into (column, channel) and the slot axis
    moved behind the column axis, is at (b, h, w, s, k) the selection between the two argument arrays' pixel (b, h, w, k). -/
theorem result_apply (T : S64x2.Idx → BitVec 32) (x1 x0 : S64x256x256x3.Idx → Elt F .f32)
    (b : Fin 64) (h : Fin 256) (w : Fin 256) (s : Fin 2) (k : Fin 3) :
    transpose S64x256x256x2x3 [0, 2, 3, 1, 4]
        (shapeCast S64x2x256x256x3
          (arrFn T (shapeCast S64x256x768 x1 shapeCasts_S64x256x256x3_S64x256x768)
            (shapeCast S64x256x768 x0 shapeCasts_S64x256x256x3_S64x256x768))
          shapeCasts_S64x2x256x768_S64x2x256x256x3)
        transposes_S64x2x256x256x3_S64x256x256x2x3_0_2_3_1_4 (ix5 b h w s k)
      = Scalar.select (Scalar.cmpi .eq (T (ix2 b s)) 0#32) (x1 (ix4 b h w k)) (x0 (ix4 b h w k)) := by
  have hl : 3 * w.val + k.val < 768 := by have := w.isLt; have := k.isLt; omega
  rw [transpose_apply _ _ transposes_S64x2x256x256x3_S64x256x256x2x3_0_2_3_1_4 (ix5 b h w s k) (ix5 b s h w k) (fun a => by
    match a with
    | ⟨0, _⟩ => rfl
    | ⟨1, _⟩ => rfl
    | ⟨2, _⟩ => rfl
    | ⟨3, _⟩ => rfl
    | ⟨4, _⟩ => rfl)]
  rw [shapeCast_apply _ shapeCasts_S64x2x256x768_S64x2x256x256x3 (ix5 b s h w k) (ix4 b s h ⟨3 * w.val + k.val, hl⟩) (by
    rw [Shape.rowMajor_val_four, Shape.rowMajor_val_five]
    show ((b.val * 2 + s.val) * 256 + h.val) * 768 + (3 * w.val + k.val)
      = (((b.val * 2 + s.val) * 256 + h.val) * 256 + w.val) * 3 + k.val
    omega)]
  unfold arrFn
  show Scalar.select (Scalar.cmpi .eq (T (ix2 b s)) 0#32)
      (shapeCast S64x256x768 x1 shapeCasts_S64x256x256x3_S64x256x768 (ix3 b h ⟨3 * w.val + k.val, hl⟩))
      (shapeCast S64x256x768 x0 shapeCasts_S64x256x256x3_S64x256x768 (ix3 b h ⟨3 * w.val + k.val, hl⟩)) = _
  rw [staged_apply x1 b h w k hl, staged_apply x0 b h w k hl]

/-- The table as the region finds it is the table argument (no host operation writes it; there is one device). -/
theorem tbl_eq (c : Dev nD) : (tbl m 0 : S64x2.Idx → BitVec 32) = m ((c : Thread nD τ).loc main_arg2) := by
  obtain rfl : c = 0 := Subsingleton.elim _ _
  exact V_main_arg2 m 0

/-- THE KERNEL'S RESULT is the selection of the three argument arrays. -/
theorem result_eq (hO : Ok m) (c : Dev nD) :
    Pipeline.afterTail pcfgs (fun _ => adm m hO) (dats m hO) 0 (V0 m) [hostOps1] c main_v4
      = Cert.Shuffle.chosen (m ((c : Thread nD τ).loc main_arg0)) (m ((c : Thread nD τ).loc main_arg1))
          (m ((c : Thread nD τ).loc main_arg2)) := by
  rw [tail_v4, V_v0, V_v1, tbl_eq m c]
  funext i
  obtain ⟨b, h, w, s, k, rfl⟩ : ∃ (b : Fin 64) (h : Fin 256) (w : Fin 256) (s : Fin 2) (k : Fin 3), i = ix5 b h w s k :=
    ⟨i 0, i 1, i 2, i 3, i 4, eq_ix5 i⟩
  rw [result_apply, Cert.Shuffle.chosen_ix5]
  rfl

/-- The kernel's run, read: every weakly fair execution ends with the result array at the selection and the three
    arguments unchanged. -/
theorem run (hO : Ok m) : θ_run defs (onTc (τ := τ) (main (F := F))) ⟨m, fun _ => 0, ρ⟩ (fun r => ∀ c : Dev nD,
      r.2.mem ((c.tc : Thread nD τ).loc main_v4)
        = Cert.Shuffle.chosen (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (by decide : main_v4 ∈ Pipeline.restRefs sig spec0)).trans (result_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c)⟩)
    (run_main m ρ hO)

end Cert.KernelIdeal.Sel
end
-- ==== Proof.lean ====
/-
  Picking one of two images per sample and slot: the kernel against `take_along_axis` over the stacked pair.

  Arguments: two stacks of 64 images [64, 256, 256, 3] and a table [64, 2] of integer words. The reference stacks the
  two images of a sample along a new axis of extent 2 (second argument at position 0, first at position 1) and indexes
  that axis by the table's word for (sample, slot); the kernel tests the word against zero and copies the second
  argument's image where it is zero, the first's otherwise. On the reference's own domain — every word 0 or 1, the
  precondition's added conjunct — both are the function `Cert.Shuffle.chosen`: a word in range is its own index, the
  reference's range mask is all ones, and position 0 / 1 of the stacked axis is the second / first argument.
  No law of extended-real arithmetic is used: the result elements are elements of the arguments.

  The kernel's frames hold for every contents of its table (no index map reads it); its value is read off the frame run:
  per grid point the eight stored tiles are one block function, the blocks tile the output array, and the reshape and
  transpose after the region re-index it. The reference's value is its run, read stage by stage at an index.
-/
import proofs.«405880_j66494683676757_3_alg».proof.Defs
import proofs.«405880_j66494683676757_3_alg».proof.Proof.Gen.Kernel
import proofs.«405880_j66494683676757_3_alg».proof.Proof.Gen.Kernel.Skeleton
import proofs.«405880_j66494683676757_3_alg».proof.Proof.Gen.Kernel.Launch
import proofs.«405880_j66494683676757_3_alg».proof.Proof.Gen.Kernel.Points
import proofs.«405880_j66494683676757_3_alg».proof.Proof.Gen.Kernel.Frame
import proofs.«405880_j66494683676757_3_alg».proof.Proof.Gen.KernelIdeal
import proofs.«405880_j66494683676757_3_alg».proof.Proof.Gen.KernelIdeal.Skeleton
import proofs.«405880_j66494683676757_3_alg».proof.Proof.Gen.KernelIdeal.Launch
import proofs.«405880_j66494683676757_3_alg».proof.Proof.Gen.KernelIdeal.Points
import proofs.«405880_j66494683676757_3_alg».proof.Proof.Gen.KernelIdeal.Frame
import proofs.«405880_j66494683676757_3_alg».proof.Proof.Gen.ReferenceIdeal
import proofs.«405880_j66494683676757_3_alg».proof.Proof.Gen.Pre_finite_inputs
import proofs.«405880_j66494683676757_3_alg».proof.Proof.RefRead
import proofs.«405880_j66494683676757_3_alg».proof.Proof.RefChosen
import proofs.«405880_j66494683676757_3_alg».proof.Proof.PreRange
import proofs.«405880_j66494683676757_3_alg».proof.Proof.KTail
import Idealize.ShloMosaic.Adequacy
import Idealize.ShloMosaic.Init

noncomputable section

namespace Cert.Proof

open Idealize.ShloMosaic Idealize.SL.Sem

/-- The word-level kernel runs and keeps its arguments, whatever its table holds: no window's index map reads the table. -/
theorem frame_k : Cert.frame_Kernel := fun m ρ _ => Cert.Kernel.Gen.frame m ρ trivial

/-- So does the idealized kernel. -/
theorem frame_ki : Cert.frame_KernelIdeal := fun m ρ _ => Cert.KernelIdeal.Gen.frame m ρ trivial

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel is the kernel's own text: no operation was rewritten. -/
theorem preserves : Cert.preserves_Kernel_KernelIdeal := trivial

/-- From arguments that agree and a table of words 0 or 1, both programs end with the selection `chosen` of the arguments. -/
theorem algebraic : Cert.algebraic_KernelIdeal_ReferenceIdeal := by
  intro m ρ m' ρ' hpre hagree
  refine ⟨fun c => Cert.Shuffle.chosen
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Sel.run (F := Ideal) m ρ trivial, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v4_eq, (hagree c).1, (hagree c).2.1, (hagree c).2.2]
  exact Cert.Shuffle.ref_chosen _ _ _ (Cert.Shuffle.inRange_of_pre _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
